-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S256x128 : Shape := ⟨2, ![256, 128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S256x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S800000x64 .f32) (main_arg2 : FVec F S192x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S3200x128 : Shape := ⟨2, ![3200, 128]⟩
abbrev S3200x64 : Shape := ⟨2, ![3200, 64]⟩
abbrev S3200x192 : Shape := ⟨2, ![3200, 192]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 30
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S192x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S2x800000, .i32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .local _ .vmem, ⟨0, _⟩ => ⟨S3200x128, .f32⟩
  | .local _ .vmem, ⟨1, _⟩ => ⟨S3200x128, .f32⟩
  | .local _ .vmem, ⟨2, _⟩ => ⟨S3200x64, .f32⟩
  | .local _ .vmem, ⟨3, _⟩ => ⟨S3200x64, .f32⟩
  | .local _ .vmem, ⟨4, _⟩ => ⟨S192x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S3200x128, .f32⟩
  | .local _ .vmem, ⟨9, _⟩ => ⟨S3200x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S256x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S3200x64_S3200x64_0_0 : ∀ a, (![0, 0] : Fin 2 → Nat) a + S3200x64.size a ≤ S3200x64.size a
  h_S3200x64 : 0 < S3200x64.numel
  concatenates_S3200x128_S3200x64_S3200x192_d1 : Shape.Concatenates [S3200x128, S3200x64] S3200x192 1
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S3200x192_S192x128_S3200x128_1_0_0_1_n_n_wf : DotDims.WF S3200x192 S192x128 S3200x128 [1] [0] [0] [1] [] []
  dot_S3200x128_S128x128_S3200x128_1_0_0_1_n_n_wf : DotDims.WF S3200x128 S128x128 S3200x128 [1] [0] [0] [1] [] []
  scatter_S50000x128_S800000x1_S800000x128_1_0_0_1_wf : ScatterDims.WF S50000x128 S800000x1 S800000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S800000x64.size a
  hwx0_1 : ∀ i : grid0.Coords, EltTy.bits .f32 = 32 ∨ (Rect.block (s := S800000x64) S3200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x128.size a ≤ S192x128.size a
  hwx0_2 : ∀ i : grid0.Coords, EltTy.bits .f32 = 32 ∨ (Rect.block (s := S192x128) S192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3200x128.size a ≤ S800000x128.size a
  hwx0_6 : ∀ i : grid0.Coords, EltTy.bits .f32 = 32 ∨ (Rect.block (s := S800000x128) S3200x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x192_S192x128_S3200x128_1_0_0_1_n_n : DotDims S3200x192 S192x128 S3200x128 where
  lhsContracting := [1]
  rhsContracting := [0]
  lhsNonContracting := [0]
  rhsNonContracting := [1]
  lhsBatch := []
  rhsBatch := []
  wf := dot_S3200x192_S192x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S3200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S1x128 : Shape := ⟨2, ![1, 128]⟩
abbrev S50000x256 : Shape := ⟨2, ![50000, 256]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S192x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S2x800000, .i32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x192, .f32⟩
  | .hbm, ⟨25, _⟩ => ⟨S800000x128, .f32⟩
  | .hbm, ⟨26, _⟩ => ⟨S1x128, .f32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S800000x128, .f32⟩
  | .hbm, ⟨31, _⟩ => ⟨S800000x128, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x256, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x192_S192x128_S800000x128_1_0_0_1_n_n_wf : DotDims.WF S800000x192 S192x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibDense.lean ====
/-
  TWO DENSE LAYERS OVER TWO ROW BLOCKS LAID SIDE BY SIDE, READ AT ONE ENTRY.

  A message or update network of a graph layer takes, row by row, the concatenation [x | y] of two feature blocks,
  applies a dense layer with a bias and a ReLU, then a second dense layer with a bias:
      out[r, j] = (sum_k max((sum_i [x | y][r, i] * w1[i, k]) + b1[k], 0) * w2[k, j]) + b2[j].
  This file states that formula once (catRow: one row of the concatenation; twoLayer: the two layers on one row) and
  reads two spellings of the computation at an entry (r, j) as that formula, on the extended reals:
    * the array spelling: two products contracting the left operand's axis 1 with the right operand's axis 0, each
      bias broadcast first to one row and then down the rows, the ReLU against a broadcast scalar zero;
    * the vector spelling: two matrix products accumulated into zero vectors, operands narrowed to a shorter float
      format first (no change on the extended reals), each bias cast to one row and broadcast down the rows, the ReLU
      against a splat zero.
  A row of the result depends on the same row of x and y only, so a block of rows of the result is the same function
  of the same block of rows of x and y: that is what a proof tiling the rows uses.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

open scoped BigOperators

namespace Idealize.ShloMosaic.Dense

open Idealize.ShloMosaic Idealize.ShloMosaic.ValueIdx

variable {M A B K H O : ℕ}

/-! ## The formula -/

/-- Row r of the concatenation [x | y] along the columns: column q comes from x when q < A and from y, at q - A,
    otherwise. -/
def catRow (hK : A + B = K) (x : FVec Ideal ⟨2, ![M, A]⟩ .f32) (y : FVec Ideal ⟨2, ![M, B]⟩ .f32) (r : Fin M)
    (q : Fin K) : EReal :=
  if h : q.val < A then x (ix2 r ⟨q.val, h⟩) else y (ix2 r ⟨q.val - A, by have := q.isLt; omega⟩)

/-- Two dense layers on one row a: a product with w1 plus the bias b1, the positive part, a product with w2 plus
    the bias b2; entry j of the result. -/
def twoLayer (a : Fin K → EReal) (w1 : FVec Ideal ⟨2, ![K, H]⟩ .f32) (b1 : FVec Ideal ⟨1, ![H]⟩ .f32)
    (w2 : FVec Ideal ⟨2, ![H, O]⟩ .f32) (b2 : FVec Ideal ⟨1, ![O]⟩ .f32) (j : Fin O) : EReal :=
  (∑ k : Fin H, max ((∑ i : Fin K, a i * w1 (ix2 i k)) + b1 (ix1 k)) 0 * w2 (ix2 k j)) + b2 (ix1 j)

/-- A row of a concatenation is decided by the same row of each block: two pairs of blocks, of any numbers of rows,
    that agree on one row each give the same concatenated row. -/
theorem catRow_congr {M' : ℕ} (hK : A + B = K) (x : FVec Ideal ⟨2, ![M, A]⟩ .f32) (y : FVec Ideal ⟨2, ![M, B]⟩ .f32)
    (x' : FVec Ideal ⟨2, ![M', A]⟩ .f32) (y' : FVec Ideal ⟨2, ![M', B]⟩ .f32) (r : Fin M) (r' : Fin M')
    (hx : ∀ q : Fin A, x (ix2 r q) = x' (ix2 r' q)) (hy : ∀ q : Fin B, y (ix2 r q) = y' (ix2 r' q)) :
    catRow hK x y r = catRow hK x' y' r' := by
  funext q
  unfold catRow
  split
  · exact hx _
  · exact hy _

/-! ## The pieces, read at an entry -/

/-- A concatenation of two blocks along the columns, read at (r, q), is catRow. -/
theorem concatenate_rows_apply (hK : A + B = K) (x : FVec Ideal ⟨2, ![M, A]⟩ .f32) (y : FVec Ideal ⟨2, ![M, B]⟩ .f32)
    (h : Shape.Concatenates [(⟨2, ![M, A]⟩ : Shape), ⟨2, ![M, B]⟩] ⟨2, ![M, K]⟩ 1) (r : Fin M) (q : Fin K) :
    concatenate ⟨2, ![M, K]⟩ 1 [⟨⟨2, ![M, A]⟩, x⟩, ⟨⟨2, ![M, B]⟩, y⟩] h (ix2 r q) = catRow hK x y r q := by
  unfold catRow
  split
  · rename_i hq
    exact concatenate_pair_apply_left (1 : Fin 2) x y h (ix2 r q) rfl (ix2 r ⟨q.val, hq⟩)
      (fun b => match b with | ⟨0, _⟩ => rfl | ⟨1, _⟩ => rfl)
  · rename_i hq
    exact concatenate_pair_apply_right (1 : Fin 2) x y h (ix2 r q) rfl rfl (ix2 r ⟨q.val - A, by have := q.isLt; omega⟩)
      (fun b hb => match b, hb with | ⟨0, _⟩, _ => rfl | ⟨1, _⟩, hb => absurd rfl hb)
      (by show (q.val - A) + A = q.val; omega)

/-- A bias broadcast to one row and then down the rows, read at (r, k), is the bias at k. -/
theorem bias_rows_apply (b : FVec Ideal ⟨1, ![H]⟩ .f32)
    (h1 : (⟨1, ![H]⟩ : Shape).BroadcastsInDim ⟨2, ![1, H]⟩ ![1])
    (h2 : (⟨2, ![1, H]⟩ : Shape).BroadcastsInDim ⟨2, ![M, H]⟩ ![0, 1]) (r : Fin M) (k : Fin H) :
    broadcastInDim ⟨2, ![M, H]⟩ ![0, 1] h2 (broadcastInDim ⟨2, ![1, H]⟩ ![1] h1 b) (ix2 r k) = b (ix1 k) := by
  refine (broadcastInDim_oneRow_apply h2 _ r k).trans ?_
  refine broadcastInDim_apply ![1] h1 b (ix2 (0 : Fin 1) k) (ix1 k) ?_
  intro a
  match a with
  | ⟨0, _⟩ =>
    show k.val = if H = 1 then 0 else k.val
    split
    · have := k.isLt; omega
    · rfl

/-- A bias cast to one row and broadcast down the rows, read at (r, k), is the bias at k. -/
theorem bias_cast_rows_apply (b : FVec Ideal ⟨1, ![H]⟩ .f32) (h1 : (⟨1, ![H]⟩ : Shape).ShapeCasts ⟨2, ![1, H]⟩)
    (h2 : (⟨2, ![1, H]⟩ : Shape).Broadcasts ⟨2, ![M, H]⟩) (r : Fin M) (k : Fin H) :
    broadcastTo ⟨2, ![M, H]⟩ (shapeCast ⟨2, ![1, H]⟩ b h1) h2 (ix2 r k) = b (ix1 k) := by
  have e1 := broadcastTo_apply (shapeCast ⟨2, ![1, H]⟩ b h1) h2 (ix2 r k) (ix2 (0 : Fin 1) k) (by
    intro a
    match a with
    | ⟨0, _⟩ => rfl
    | ⟨1, _⟩ =>
      show k.val = if H = 1 then 0 else k.val
      split
      · have := k.isLt; omega
      · rfl)
  have e2 := shapeCast_apply b h1 (ix2 (0 : Fin 1) k) (ix1 k) (by
    rw [Shape.rowMajor_val_two, Shape.rowMajor_val_one]; show k.val = 0 * H + k.val; omega)
  exact e1.trans e2

/-- A scalar zero broadcast to a matrix is zero at every entry. -/
theorem zero_bcast_apply (h : (⟨0, ![]⟩ : Shape).BroadcastsInDim ⟨2, ![M, H]⟩ ![]) (i : (⟨2, ![M, H]⟩ : Shape).Idx) :
    broadcastInDim ⟨2, ![M, H]⟩ ![] h (constant (F := Ideal) ⟨0, ![]⟩ .f32 0x00000000#32) i = (0 : EReal) := by
  refine (broadcastInDim_apply ![] h (constant (F := Ideal) ⟨0, ![]⟩ .f32 0x00000000#32) i ix0 (fun a => a.elim0)).trans ?_
  exact Ideal.ofBits_zero_f32

/-- A matrix product accumulated into a zero matrix, read at (a, b): the sum over the contracted coordinate. -/
theorem matmul_plain_apply {m k n : ℕ} {φ₁ φ₂ : FTy} (prec : Option ContractPrecision)
    (X : FVec Ideal ⟨2, ![m, k]⟩ φ₁) (Y : FVec Ideal ⟨2, ![k, n]⟩ φ₂) (a : Fin m) (b : Fin n) :
    matmul (DotDims.plain m k n) prec X Y (constant ⟨2, ![m, n]⟩ .f32 0x00000000#32) (ix2 a b)
      = ∑ c : Fin k, X (ix2 a c) * Y (ix2 c b) :=
  (congrFun (matmul_zero_eq_dotGeneral (DotDims.plain m k n) prec X Y) (ix2 a b)).trans
    (StackMember.dotGeneral_plain_apply prec X Y a b)

/-! ## The two spellings -/

/-- The array spelling read at (r, j). -/
theorem host_twoLayer_apply (hK : A + B = K)
    (hc : Shape.Concatenates [(⟨2, ![M, A]⟩ : Shape), ⟨2, ![M, B]⟩] ⟨2, ![M, K]⟩ 1)
    (hb1 : (⟨1, ![H]⟩ : Shape).BroadcastsInDim ⟨2, ![1, H]⟩ ![1])
    (hb1' : (⟨2, ![1, H]⟩ : Shape).BroadcastsInDim ⟨2, ![M, H]⟩ ![0, 1])
    (hz : (⟨0, ![]⟩ : Shape).BroadcastsInDim ⟨2, ![M, H]⟩ ![])
    (hb2 : (⟨1, ![O]⟩ : Shape).BroadcastsInDim ⟨2, ![1, O]⟩ ![1])
    (hb2' : (⟨2, ![1, O]⟩ : Shape).BroadcastsInDim ⟨2, ![M, O]⟩ ![0, 1])
    (d1 : DotDims ⟨2, ![M, K]⟩ ⟨2, ![K, H]⟩ ⟨2, ![M, H]⟩) (hd1 : d1 = DotDims.plain M K H)
    (d2 : DotDims ⟨2, ![M, H]⟩ ⟨2, ![H, O]⟩ ⟨2, ![M, O]⟩) (hd2 : d2 = DotDims.plain M H O)
    (x : FVec Ideal ⟨2, ![M, A]⟩ .f32) (y : FVec Ideal ⟨2, ![M, B]⟩ .f32) (w1 : FVec Ideal ⟨2, ![K, H]⟩ .f32)
    (b1 : FVec Ideal ⟨1, ![H]⟩ .f32) (w2 : FVec Ideal ⟨2, ![H, O]⟩ .f32) (b2 : FVec Ideal ⟨1, ![O]⟩ .f32)
    (r : Fin M) (j : Fin O) :
    addf (Host.dotGeneral d2 none
        (maximumf (addf (Host.dotGeneral d1 none (concatenate ⟨2, ![M, K]⟩ 1 [⟨⟨2, ![M, A]⟩, x⟩, ⟨⟨2, ![M, B]⟩, y⟩] hc) w1)
            (broadcastInDim ⟨2, ![M, H]⟩ ![0, 1] hb1' (broadcastInDim ⟨2, ![1, H]⟩ ![1] hb1 b1)))
          (broadcastInDim ⟨2, ![M, H]⟩ ![] hz (constant (F := Ideal) ⟨0, ![]⟩ .f32 0x00000000#32))) w2)
      (broadcastInDim ⟨2, ![M, O]⟩ ![0, 1] hb2' (broadcastInDim ⟨2, ![1, O]⟩ ![1] hb2 b2)) (ix2 r j)
      = twoLayer (catRow hK x y r) w1 b1 w2 b2 j := by
  subst hd1 hd2
  unfold twoLayer
  rw [addf_apply, StackMember.dotGeneral_plain_apply, bias_rows_apply]
  refine congrArg (· + b2 (ix1 j)) (Finset.sum_congr rfl fun k _ => ?_)
  refine congrArg (· * w2 (ix2 k j)) ?_
  rw [maximumf_apply, addf_apply, StackMember.dotGeneral_plain_apply, bias_rows_apply, zero_bcast_apply]
  refine congrArg (fun s => max (s + b1 (ix1 k)) 0) (Finset.sum_congr rfl fun i _ => ?_)
  rw [concatenate_rows_apply hK]

/-- The vector spelling read at (r, j). -/
theorem kernel_twoLayer_apply (hK : A + B = K)
    (hc : Shape.Concatenates [(⟨2, ![M, A]⟩ : Shape), ⟨2, ![M, B]⟩] ⟨2, ![M, K]⟩ 1)
    (hs1 : (⟨1, ![H]⟩ : Shape).ShapeCasts ⟨2, ![1, H]⟩) (hb1 : (⟨2, ![1, H]⟩ : Shape).Broadcasts ⟨2, ![M, H]⟩)
    (hs2 : (⟨1, ![O]⟩ : Shape).ShapeCasts ⟨2, ![1, O]⟩) (hb2 : (⟨2, ![1, O]⟩ : Shape).Broadcasts ⟨2, ![M, O]⟩)
    (ht : FTy.bf16.bits < FTy.f32.bits)
    (d1 : DotDims ⟨2, ![M, K]⟩ ⟨2, ![K, H]⟩ ⟨2, ![M, H]⟩) (hd1 : d1 = DotDims.plain M K H)
    (d2 : DotDims ⟨2, ![M, H]⟩ ⟨2, ![H, O]⟩ ⟨2, ![M, O]⟩) (hd2 : d2 = DotDims.plain M H O)
    (x : FVec Ideal ⟨2, ![M, A]⟩ .f32) (y : FVec Ideal ⟨2, ![M, B]⟩ .f32) (w1 : FVec Ideal ⟨2, ![K, H]⟩ .f32)
    (b1 : FVec Ideal ⟨1, ![H]⟩ .f32) (w2 : FVec Ideal ⟨2, ![H, O]⟩ .f32) (b2 : FVec Ideal ⟨1, ![O]⟩ .f32)
    (r : Fin M) (j : Fin O) :
    addf (matmul d2 none
        (truncf .bf16 (maximumf (addf (matmul d1 none
              (truncf .bf16 (concatenate ⟨2, ![M, K]⟩ 1 [⟨⟨2, ![M, A]⟩, x⟩, ⟨⟨2, ![M, B]⟩, y⟩] hc) ht) (truncf .bf16 w1 ht)
              (constant ⟨2, ![M, H]⟩ .f32 0x00000000#32))
            (broadcastTo ⟨2, ![M, H]⟩ (shapeCast ⟨2, ![1, H]⟩ b1 hs1) hb1))
          (broadcast ⟨2, ![M, H]⟩ (Scalar.ofBits (F := Ideal) .f32 0x00000000#32))) ht)
        (truncf .bf16 w2 ht) (constant ⟨2, ![M, O]⟩ .f32 0x00000000#32))
      (broadcastTo ⟨2, ![M, O]⟩ (shapeCast ⟨2, ![1, O]⟩ b2 hs2) hb2) (ix2 r j)
      = twoLayer (catRow hK x y r) w1 b1 w2 b2 j := by
  subst hd1 hd2
  unfold twoLayer
  rw [addf_apply, matmul_plain_apply, bias_cast_rows_apply]
  refine congrArg (· + b2 (ix1 j)) (Finset.sum_congr rfl fun k _ => ?_)
  refine congrArg (· * w2 (ix2 k j)) ?_
  show max (matmul (DotDims.plain M K H) none _ _ _ (ix2 r k) + broadcastTo _ _ hb1 (ix2 r k)) (Ideal.ofBits .f32 0x00000000#32) = _
  rw [matmul_plain_apply, bias_cast_rows_apply, Ideal.ofBits_zero_f32]
  refine congrArg (fun s => max (s + b1 (ix1 k)) 0) (Finset.sum_congr rfl fun i _ => ?_)
  exact congrArg (· * w1 (ix2 i k)) (concatenate_rows_apply hK x y hc r i)

end Idealize.ShloMosaic.Dense

end
-- ==== Proof.MsgValue.lean ====
/-
  THE MESSAGE NETWORK'S REGION, AS ONE FUNCTION OF ITS ARRAYS.

  The first kernel region tiles the 800000 edges into 250 blocks of 3200 rows. At block t its body takes rows
  3200 t … 3200 t + 3199 of the gathered node features (128 columns) and of the edge encodings (64 columns), lays them
  side by side, and applies two dense layers (192 → 128 with a ReLU, 128 → 128); the weights and biases are whole at
  every block. A row of the result depends on the same row of the two inputs only, so block t of the result is rows
  3200 t … of ONE function msg of the whole arrays, and the 250 blocks cover the result array: after the region it holds
  msg of the arrays the region found. Everything here is stated at ANY contents V of the buffers at the region's entry.
-/
import proofs.«164690_j72181220376644_1_alg».proof.Proof.Gen.KernelIdeal.Frame
import proofs.«164690_j72181220376644_1_alg».proof.Proof.LibDense
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Msg

open Cert.KernelIdeal Cert.KernelIdeal.Gen

variable (V : (c : Dev nD) → (b : Ref sig .tc) → Buf (Elt Ideal) ((c : Thread nD τ).loc b))

/-- The message network on whole arrays: entry (e, j) is the two dense layers on row e of [gx | pe]. -/
def msg (gx : FVec Ideal S800000x128 .f32) (pe : FVec Ideal S800000x64 .f32) (w1 : FVec Ideal S192x128 .f32)
    (b1 : FVec Ideal S128 .f32) (w2 : FVec Ideal S128x128 .f32) (b2 : FVec Ideal S128 .f32) : FVec Ideal S800000x128 .f32 :=
  fun i => Dense.twoLayer (Dense.catRow (A := 128) (B := 64) (K := 192) rfl gx pe (i 0)) w1 b1 w2 b2 (i 1)

theorem hz2 : (![0, 0] : Fin 2 → Nat) = fun _ => 0 := funext fun a => by fin_cases a <;> rfl
theorem hz1 : (![0] : Fin 1 → Nat) = fun _ => 0 := funext fun a => by fin_cases a; rfl

/-- The body's stored value at (r, q) is the two dense layers on row r of its two input blocks side by side. -/
theorem pay_apply (x0 : FVec Ideal S3200x128 .f32) (x1 : FVec Ideal S3200x64 .f32) (w1 : FVec Ideal S192x128 .f32)
    (b1 : FVec Ideal S128 .f32) (w2 : FVec Ideal S128x128 .f32) (b2 : FVec Ideal S128 .f32) (r : Fin 3200) (q : Fin 128) :
    k0_pay1 (F := Ideal) x0 x1 w1 b1 w2 b2 (ix2 r q)
      = Dense.twoLayer (Dense.catRow (A := 128) (B := 64) (K := 192) rfl x0 x1 r) w1 b1 w2 b2 q := by
  unfold k0_pay1
  refine (Dense.kernel_twoLayer_apply (M := 3200) (A := 128) (B := 64) (K := 192) (H := 128) (O := 128) rfl
    concatenates_S3200x128_S3200x64_S3200x192_d1 shapeCasts_S128_S1x128 broadcasts_S1x128_S3200x128
    shapeCasts_S128_S1x128 broadcasts_S1x128_S3200x128 bitsLt_bf16_f32
    dot_S3200x192_S192x128_S3200x128_1_0_0_1_n_n rfl dot_S3200x128_S128x128_S3200x128_1_0_0_1_n_n rfl
    (shapeCast S3200x128 x0 shapeCasts_S3200x128_S3200x128) x1 w1 b1 w2 b2 r q).trans ?_
  rw [shapeCast_self]

/-- The printed index maps over the grid: the row-tiled windows are at block (t, 0), the whole ones at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The row of the arrays that row r of block t is. -/
def rowOf (t : Fin cfg0.N) (r : Fin 3200) : Fin 800000 :=
  ⟨3200 * t.val + r.val, by have h : t.val < 250 := N_0 ▸ t.isLt; have := r.isLt; omega⟩

/-- Block t of the gathered features, at (r, q), is the array at (3200 t + r, q). -/
theorem gx_block (c : Dev nD) (t : Fin cfg0.N) (r : Fin 3200) (q : Fin 128) :
    (iblk0 V c 0 t : Vec Ideal S3200x128 .f32) (ix2 r q)
      = (V c main_v10 : S800000x128.Idx → Elt Ideal .f32) (ix2 (rowOf t r) q) := by
  obtain ⟨e0, e1, -⟩ := idx_facts t
  unfold iblk0
  rw [View.read_apply]
  show V c main_v10 _ = V c main_v10 _
  refine congrArg (V c main_v10) ?_
  funext a
  apply Fin.ext
  match a with
  | ⟨0, _⟩ => show win0_0.index t (0 : Fin 2) * 3200 + 1 * r.val = 3200 * t.val + r.val; rw [e0]; omega
  | ⟨1, _⟩ => show win0_0.index t (1 : Fin 2) * 128 + 1 * q.val = q.val; rw [e1]; omega

/-- Block t of the edge encodings, at (r, q), is the array at (3200 t + r, q). -/
theorem pe_block (c : Dev nD) (t : Fin cfg0.N) (r : Fin 3200) (q : Fin 64) :
    (iblk0 V c 1 t : Vec Ideal S3200x64 .f32) (ix2 r q)
      = (V c main_arg1 : S800000x64.Idx → Elt Ideal .f32) (ix2 (rowOf t r) q) := by
  obtain ⟨-, -, e0, e1, -⟩ := idx_facts t
  unfold iblk0
  rw [View.read_apply]
  show V c main_arg1 _ = V c main_arg1 _
  refine congrArg (V c main_arg1) ?_
  funext a
  apply Fin.ext
  match a with
  | ⟨0, _⟩ => show win0_1.index t (0 : Fin 2) * 3200 + 1 * r.val = 3200 * t.val + r.val; rw [e0]; omega
  | ⟨1, _⟩ => show win0_1.index t (1 : Fin 2) * 64 + 1 * q.val = q.val; rw [e1]; omega

/-- The first layer's weights are whole at every block. -/
theorem w1_block (c : Dev nD) (t : Fin cfg0.N) :
    (iblk0 V c 2 t : Vec Ideal S192x128 .f32) = (V c main_arg2 : S192x128.Idx → Elt Ideal .f32) := by
  obtain ⟨-, -, -, -, e0, e1, -⟩ := idx_facts t
  funext y
  unfold iblk0
  rw [View.read_apply]
  show V c main_arg2 _ = V c main_arg2 _
  refine congrArg (V c main_arg2) ?_
  funext a
  apply Fin.ext
  match a with
  | ⟨0, _⟩ => show win0_2.index t (0 : Fin 2) * 192 + 1 * (y 0).val = (y 0).val; rw [e0]; omega
  | ⟨1, _⟩ => show win0_2.index t (1 : Fin 2) * 128 + 1 * (y 1).val = (y 1).val; rw [e1]; omega

/-- The first layer's bias is whole at every block. -/
theorem b1_block (c : Dev nD) (t : Fin cfg0.N) :
    (iblk0 V c 3 t : Vec Ideal S128 .f32) = (V c main_arg3 : S128.Idx → Elt Ideal .f32) := by
  obtain ⟨-, -, -, -, -, -, e0, -⟩ := idx_facts t
  funext y
  unfold iblk0
  rw [View.read_apply]
  show V c main_arg3 _ = V c main_arg3 _
  refine congrArg (V c main_arg3) ?_
  funext a
  apply Fin.ext
  match a with
  | ⟨0, _⟩ => show win0_3.index t (0 : Fin 1) * 128 + 1 * (y 0).val = (y 0).val; rw [e0]; omega

/-- The second layer's weights are whole at every block. -/
theorem w2_block (c : Dev nD) (t : Fin cfg0.N) :
    (iblk0 V c 4 t : Vec Ideal S128x128 .f32) = (V c main_arg4 : S128x128.Idx → Elt Ideal .f32) := by
  obtain ⟨-, -, -, -, -, -, -, e0, e1, -⟩ := idx_facts t
  funext y
  unfold iblk0
  rw [View.read_apply]
  show V c main_arg4 _ = V c main_arg4 _
  refine congrArg (V c main_arg4) ?_
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The second layer's bias is whole at every block. -/
theorem b2_block (c : Dev nD) (t : Fin cfg0.N) :
    (iblk0 V c 5 t : Vec Ideal S128 .f32) = (V c main_arg5 : S128.Idx → Elt Ideal .f32) := by
  obtain ⟨-, -, -, -, -, -, -, -, -, e0, -⟩ := idx_facts t
  funext y
  unfold iblk0
  rw [View.read_apply]
  show V c main_arg5 _ = V c main_arg5 _
  refine congrArg (V c main_arg5) ?_
  funext a
  apply Fin.ext
  match a with
  | ⟨0, _⟩ => show win0_5.index t (0 : Fin 1) * 128 + 1 * (y 0).val = (y 0).val; rw [e0]; omega

/-- Where entry (r, q) of the result's block t lies in the result array. -/
theorem out_emb (t : Fin cfg0.N) (r : Fin 3200) (q : Fin 128) :
    (((cfg0.win 6).blk t).view.emb (ix2 r q) : S800000x128.Idx) = ix2 (rowOf t r) q := by
  obtain ⟨-, -, -, -, -, -, -, -, -, -, e0, e1⟩ := idx_facts t
  funext a
  apply Fin.ext
  match a with
  | ⟨0, _⟩ => show win0_6.index t (0 : Fin 2) * 3200 + 1 * r.val = 3200 * t.val + r.val; rw [e0]; omega
  | ⟨1, _⟩ => show win0_6.index t (1 : Fin 2) * 128 + 1 * q.val = q.val; rw [e1]; omega

/-- WHAT BLOCK t WRITES BACK is block t of msg of the arrays the region found. -/
theorem msg_block (c : Dev nD) (t : Fin cfg0.N) :
    (dat0 V c).flushed 6 t = ((cfg0.win 6).blk t).view.read (Elt Ideal)
      (msg (V c main_v10) (V c main_arg1) (V c main_arg2) (V c main_arg3) (V c main_arg4) (V c main_arg5)) := by
  show (cfg0.win 6).cut (grid0.coords t) ((dat0 V c).after 6 t) = _
  rw [after0_6]
  unfold out0_6
  rw [View.canon_unit_zero hz2]
  simp only [View.ld_unit_zero (S := S3200x128) hz2, View.ld_unit_zero (S := S3200x64) hz2,
    View.ld_unit_zero (S := S192x128) hz2, View.ld_unit_zero (S := S128) hz1, View.ld_unit_zero (S := S128x128) hz2]
  rw [w1_block, b1_block, w2_block, b2_block]
  funext y
  obtain ⟨r, q, rfl⟩ : ∃ (r : Fin 3200) (q : Fin 128), y = ix2 r q := ⟨y 0, y 1, eq_ix2 y⟩
  rw [View.read_apply, out_emb]
  refine (pay_apply _ _ _ _ _ _ r q).trans ?_
  unfold msg
  show Dense.twoLayer _ _ _ _ _ q = Dense.twoLayer _ _ _ _ _ q
  rw [Dense.catRow_congr (rfl : 128 + 64 = 192) (iblk0 V c 0 t) (iblk0 V c 1 t) (V c main_v10) (V c main_arg1) r (rowOf t r)
    (gx_block V c t r) (pe_block V c t r)]

/-- The 250 blocks cover the result array. -/
theorem msg_final (c : Dev nD) : (dat0 V c).arrAt 6 cfg0.N
    = msg (V c main_v10) (V c main_arg1) (V c main_arg2) (V c main_arg3) (V c main_arg4) (V c main_arg5) :=
  (dat0 V c).arrAt_eq_of_cover 6 _ (fun t _ => msg_block V c t) fun i => by
    have h0 : (i 0 : Nat) < 800000 := (i 0).isLt
    have h1 : (i 1 : Nat) < 128 := (i 1).isLt
    have hN : grid0.N = 250 := N_0
    let t : Fin cfg0.N := ⟨(i 0 : Nat) / 3200, by show _ < grid0.N; rw [hN]; omega⟩
    obtain ⟨-, -, -, -, -, -, -, -, -, -, e0, e1⟩ := idx_facts t
    refine ⟨t, flush0_6 t, ?_⟩
    show i ∈ ((View.whole main_v11).slice (win0_6.rect t)).set
    rw [View.set_slice_whole, Rect.mem_set_unit]
    intro a
    match a with
    | ⟨0, _⟩ =>
      show win0_6.index t (0 : Fin 2) * 3200 ≤ (i 0 : Nat) ∧ (i 0 : Nat) < win0_6.index t (0 : Fin 2) * 3200 + 3200
      rw [e0]; show (i 0 : Nat) / 3200 * 3200 ≤ (i 0 : Nat) ∧ (i 0 : Nat) < (i 0 : Nat) / 3200 * 3200 + 3200; omega
    | ⟨1, _⟩ =>
      show win0_6.index t (1 : Fin 2) * 128 ≤ (i 1 : Nat) ∧ (i 1 : Nat) < win0_6.index t (1 : Fin 2) * 128 + 128
      rw [e1]; omega

end Cert.KernelIdeal.Msg

end
-- ==== Proof.UpdValue.lean ====
/-
  THE UPDATE NETWORK'S REGION, AS ONE FUNCTION OF ITS ARRAYS.

  The second kernel region tiles the 50000 nodes into 10 blocks of 5000 rows. At block t its body takes rows
  5000 t … 5000 t + 4999 of the node features and of the aggregated messages (128 columns each), lays them side by
  side, and applies two dense layers (256 → 128 with a ReLU, 128 → 128); the weights and biases are whole at every
  block. A row of the result depends on the same row of the two inputs only, so block t of the result is rows 5000 t …
  of ONE function upd of the whole arrays, and the 10 blocks cover the result array: after the region it holds upd of
  the arrays the region found. Everything here is stated at ANY contents V of the buffers at the region's entry.
-/
import proofs.«164690_j72181220376644_1_alg».proof.Proof.Gen.KernelIdeal.Frame
import proofs.«164690_j72181220376644_1_alg».proof.Proof.LibDense
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Upd

open Cert.KernelIdeal Cert.KernelIdeal.Gen

variable (V : (c : Dev nD) → (b : Ref sig .tc) → Buf (Elt Ideal) ((c : Thread nD τ).loc b))

/-- The update network on whole arrays: entry (n, j) is the two dense layers on row n of [x | agg]. -/
def upd (x : FVec Ideal S50000x128 .f32) (agg : FVec Ideal S50000x128 .f32) (u1 : FVec Ideal S256x128 .f32)
    (c1 : FVec Ideal S128 .f32) (u2 : FVec Ideal S128x128 .f32) (c2 : FVec Ideal S128 .f32) : FVec Ideal S50000x128 .f32 :=
  fun i => Dense.twoLayer (Dense.catRow (A := 128) (B := 128) (K := 256) rfl x agg (i 0)) u1 c1 u2 c2 (i 1)

theorem zero2 : (![0, 0] : Fin 2 → Nat) = fun _ => 0 := funext fun a => by fin_cases a <;> rfl
theorem zero1 : (![0] : Fin 1 → Nat) = fun _ => 0 := funext fun a => by fin_cases a; rfl

/-- The body's stored value at (r, q) is the two dense layers on row r of its two input blocks side by side. -/
theorem stored_apply (x0 : FVec Ideal S5000x128 .f32) (x1 : FVec Ideal S5000x128 .f32) (u1 : FVec Ideal S256x128 .f32)
    (c1 : FVec Ideal S128 .f32) (u2 : FVec Ideal S128x128 .f32) (c2 : FVec Ideal S128 .f32) (r : Fin 5000) (q : Fin 128) :
    k1_pay1 (F := Ideal) x0 x1 u1 c1 u2 c2 (ix2 r q)
      = Dense.twoLayer (Dense.catRow (A := 128) (B := 128) (K := 256) rfl x0 x1 r) u1 c1 u2 c2 q := by
  unfold k1_pay1
  refine (Dense.kernel_twoLayer_apply (M := 5000) (A := 128) (B := 128) (K := 256) (H := 128) (O := 128) rfl
    concatenates_S5000x128_S5000x128_S5000x256_d1 shapeCasts_S128_S1x128 broadcasts_S1x128_S5000x128
    shapeCasts_S128_S1x128 broadcasts_S1x128_S5000x128 bitsLt_bf16_f32
    dot_S5000x256_S256x128_S5000x128_1_0_0_1_n_n rfl dot_S5000x128_S128x128_S5000x128_1_0_0_1_n_n rfl
    x0 (shapeCast S5000x128 x1 shapeCasts_S5000x128_S5000x128) u1 c1 u2 c2 r q).trans ?_
  rw [shapeCast_self]

/-- The printed index maps over the grid: the row-tiled windows are at block (t, 0), the whole ones at block 0. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The node that row r of block t is. -/
def nodeOf (t : Fin cfg1.N) (r : Fin 5000) : Fin 50000 :=
  ⟨5000 * t.val + r.val, by have h : t.val < 10 := N_1 ▸ t.isLt; have := r.isLt; omega⟩

/-- Block t of the node features, at (r, q), is the array at (5000 t + r, q). -/
theorem x_block (c : Dev nD) (t : Fin cfg1.N) (r : Fin 5000) (q : Fin 128) :
    (iblk1 V c 0 t : Vec Ideal S5000x128 .f32) (ix2 r q)
      = (V c main_arg0 : S50000x128.Idx → Elt Ideal .f32) (ix2 (nodeOf t r) q) := by
  obtain ⟨e0, e1, -⟩ := index_facts t
  unfold iblk1
  rw [View.read_apply]
  show V c main_arg0 _ = V c main_arg0 _
  refine congrArg (V c main_arg0) ?_
  funext a
  apply Fin.ext
  match a with
  | ⟨0, _⟩ => show win1_0.index t (0 : Fin 2) * 5000 + 1 * r.val = 5000 * t.val + r.val; rw [e0]; omega
  | ⟨1, _⟩ => show win1_0.index t (1 : Fin 2) * 128 + 1 * q.val = q.val; rw [e1]; omega

/-- Block t of the aggregated messages, at (r, q), is the array at (5000 t + r, q). -/
theorem agg_block (c : Dev nD) (t : Fin cfg1.N) (r : Fin 5000) (q : Fin 128) :
    (iblk1 V c 1 t : Vec Ideal S5000x128 .f32) (ix2 r q)
      = (V c main_v14 : S50000x128.Idx → Elt Ideal .f32) (ix2 (nodeOf t r) q) := by
  obtain ⟨-, -, e0, e1, -⟩ := index_facts t
  unfold iblk1
  rw [View.read_apply]
  show V c main_v14 _ = V c main_v14 _
  refine congrArg (V c main_v14) ?_
  funext a
  apply Fin.ext
  match a with
  | ⟨0, _⟩ => show win1_1.index t (0 : Fin 2) * 5000 + 1 * r.val = 5000 * t.val + r.val; rw [e0]; omega
  | ⟨1, _⟩ => show win1_1.index t (1 : Fin 2) * 128 + 1 * q.val = q.val; rw [e1]; omega

/-- The first layer's weights are whole at every block. -/
theorem u1_block (c : Dev nD) (t : Fin cfg1.N) :
    (iblk1 V c 2 t : Vec Ideal S256x128 .f32) = (V c main_arg6 : S256x128.Idx → Elt Ideal .f32) := by
  obtain ⟨-, -, -, -, e0, e1, -⟩ := index_facts t
  funext y
  unfold iblk1
  rw [View.read_apply]
  show V c main_arg6 _ = V c main_arg6 _
  refine congrArg (V c main_arg6) ?_
  funext a
  apply Fin.ext
  match a with
  | ⟨0, _⟩ => show win1_2.index t (0 : Fin 2) * 256 + 1 * (y 0).val = (y 0).val; rw [e0]; omega
  | ⟨1, _⟩ => show win1_2.index t (1 : Fin 2) * 128 + 1 * (y 1).val = (y 1).val; rw [e1]; omega

/-- The first layer's bias is whole at every block. -/
theorem c1_block (c : Dev nD) (t : Fin cfg1.N) :
    (iblk1 V c 3 t : Vec Ideal S128 .f32) = (V c main_arg7 : S128.Idx → Elt Ideal .f32) := by
  obtain ⟨-, -, -, -, -, -, e0, -⟩ := index_facts t
  funext y
  unfold iblk1
  rw [View.read_apply]
  show V c main_arg7 _ = V c main_arg7 _
  refine congrArg (V c main_arg7) ?_
  funext a
  apply Fin.ext
  match a with
  | ⟨0, _⟩ => show win1_3.index t (0 : Fin 1) * 128 + 1 * (y 0).val = (y 0).val; rw [e0]; omega

/-- The second layer's weights are whole at every block. -/
theorem u2_block (c : Dev nD) (t : Fin cfg1.N) :
    (iblk1 V c 4 t : Vec Ideal S128x128 .f32) = (V c main_arg8 : S128x128.Idx → Elt Ideal .f32) := by
  obtain ⟨-, -, -, -, -, -, -, e0, e1, -⟩ := index_facts t
  funext y
  unfold iblk1
  rw [View.read_apply]
  show V c main_arg8 _ = V c main_arg8 _
  refine congrArg (V c main_arg8) ?_
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The second layer's bias is whole at every block. -/
theorem c2_block (c : Dev nD) (t : Fin cfg1.N) :
    (iblk1 V c 5 t : Vec Ideal S128 .f32) = (V c main_arg9 : S128.Idx → Elt Ideal .f32) := by
  obtain ⟨-, -, -, -, -, -, -, -, -, e0, -⟩ := index_facts t
  funext y
  unfold iblk1
  rw [View.read_apply]
  show V c main_arg9 _ = V c main_arg9 _
  refine congrArg (V c main_arg9) ?_
  funext a
  apply Fin.ext
  match a with
  | ⟨0, _⟩ => show win1_5.index t (0 : Fin 1) * 128 + 1 * (y 0).val = (y 0).val; rw [e0]; omega

/-- Where entry (r, q) of the result's block t lies in the result array. -/
theorem result_emb (t : Fin cfg1.N) (r : Fin 5000) (q : Fin 128) :
    (((cfg1.win 6).blk t).view.emb (ix2 r q) : S50000x128.Idx) = ix2 (nodeOf t r) q := by
  obtain ⟨-, -, -, -, -, -, -, -, -, -, e0, e1⟩ := index_facts t
  funext a
  apply Fin.ext
  match a with
  | ⟨0, _⟩ => show win1_6.index t (0 : Fin 2) * 5000 + 1 * r.val = 5000 * t.val + r.val; rw [e0]; omega
  | ⟨1, _⟩ => show win1_6.index t (1 : Fin 2) * 128 + 1 * q.val = q.val; rw [e1]; omega

/-- WHAT BLOCK t WRITES BACK is block t of upd of the arrays the region found. -/
theorem upd_block (c : Dev nD) (t : Fin cfg1.N) :
    (dat1 V c).flushed 6 t = ((cfg1.win 6).blk t).view.read (Elt Ideal)
      (upd (V c main_arg0) (V c main_v14) (V c main_arg6) (V c main_arg7) (V c main_arg8) (V c main_arg9)) := by
  show (cfg1.win 6).cut (grid1.coords t) ((dat1 V c).after 6 t) = _
  rw [after1_6]
  unfold out1_6
  rw [View.canon_unit_zero zero2]
  simp only [View.ld_unit_zero (S := S5000x128) zero2, View.ld_unit_zero (S := S256x128) zero2,
    View.ld_unit_zero (S := S128) zero1, View.ld_unit_zero (S := S128x128) zero2]
  rw [u1_block, c1_block, u2_block, c2_block]
  funext y
  obtain ⟨r, q, rfl⟩ : ∃ (r : Fin 5000) (q : Fin 128), y = ix2 r q := ⟨y 0, y 1, eq_ix2 y⟩
  rw [View.read_apply, result_emb]
  refine (stored_apply _ _ _ _ _ _ r q).trans ?_
  unfold upd
  show Dense.twoLayer _ _ _ _ _ q = Dense.twoLayer _ _ _ _ _ q
  rw [Dense.catRow_congr (rfl : 128 + 128 = 256) (iblk1 V c 0 t) (iblk1 V c 1 t) (V c main_arg0) (V c main_v14) r (nodeOf t r)
    (x_block V c t r) (agg_block V c t r)]

/-- The 10 blocks cover the result array. -/
theorem upd_final (c : Dev nD) : (dat1 V c).arrAt 6 cfg1.N
    = upd (V c main_arg0) (V c main_v14) (V c main_arg6) (V c main_arg7) (V c main_arg8) (V c main_arg9) :=
  (dat1 V c).arrAt_eq_of_cover 6 _ (fun t _ => upd_block V c t) fun i => by
    have h0 : (i 0 : Nat) < 50000 := (i 0).isLt
    have h1 : (i 1 : Nat) < 128 := (i 1).isLt
    have hN : grid1.N = 10 := N_1
    let t : Fin cfg1.N := ⟨(i 0 : Nat) / 5000, by show _ < grid1.N; rw [hN]; omega⟩
    obtain ⟨-, -, -, -, -, -, -, -, -, -, e0, e1⟩ := index_facts t
    refine ⟨t, flush1_6 t, ?_⟩
    show i ∈ ((View.whole main_v15).slice (win1_6.rect t)).set
    rw [View.set_slice_whole, Rect.mem_set_unit]
    intro a
    match a with
    | ⟨0, _⟩ =>
      show win1_6.index t (0 : Fin 2) * 5000 ≤ (i 0 : Nat) ∧ (i 0 : Nat) < win1_6.index t (0 : Fin 2) * 5000 + 5000
      rw [e0]; show (i 0 : Nat) / 5000 * 5000 ≤ (i 0 : Nat) ∧ (i 0 : Nat) < (i 0 : Nat) / 5000 * 5000 + 5000; omega
    | ⟨1, _⟩ =>
      show win1_6.index t (1 : Fin 2) * 128 ≤ (i 1 : Nat) ∧ (i 1 : Nat) < win1_6.index t (1 : Fin 2) * 128 + 128
      rw [e1]; omega

end Cert.KernelIdeal.Upd

end
-- ==== Proof.KernelWhole.lean ====
/-
  THE KERNEL PROGRAM'S RESULT AS ONE FUNCTION OF ITS ARGUMENTS.

  The program gathers the source node's features for every edge, runs the message network's region over the edges,
  adds each edge's message into its destination node's row of a zero array, and runs the update network's region over
  the nodes. Reading the buffer contents boundary by boundary — the operations before the first region, that region's
  result array (msg of what it found), the operations between the regions, the second region's result array (upd of
  what it found) — the result buffer ends at
      upd x (scatter-add of msg (gather x src) pe w1 b1 w2 b2 at dst into zeros) u1 c1 u2 c2
  of the argument arrays, where src and dst are the two rows of the edge index array (a negative source index moved
  up by the number of nodes first).
-/
import proofs.«164690_j72181220376644_1_alg».proof.Proof.FrameNamed
import proofs.«164690_j72181220376644_1_alg».proof.Proof.MsgValue
import proofs.«164690_j72181220376644_1_alg».proof.Proof.UpdValue
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Whole

open Cert.KernelIdeal Cert.KernelIdeal.Gen Cert.KernelIdeal.Msg Cert.KernelIdeal.Upd

/-- The start indices of the gather: row 0 of the edge index array, a negative entry moved up by 50000, as a column. -/
def srcRows (e : IVec S2x800000 32) : IVec S800000x1 32 :=
  broadcastInDim S800000x1 ![0] bcast_S800000_S800000x1_0
    (select
      (cmpi .slt (shapeCast _ (extractStridedSlice S1x800000 ![0, 0] e slices_S2x800000_S1x800000_0_0) shapeCasts_S1x800000_S800000)
        (broadcastInDim S800000 ![] bcast_S_S800000 (constantI S_ 32 0#32)))
      (addi (shapeCast _ (extractStridedSlice S1x800000 ![0, 0] e slices_S2x800000_S1x800000_0_0) shapeCasts_S1x800000_S800000)
        (broadcastInDim S800000 ![] bcast_S_S800000 (constantI S_ 32 50000#32)))
      (shapeCast _ (extractStridedSlice S1x800000 ![0, 0] e slices_S2x800000_S1x800000_0_0) shapeCasts_S1x800000_S800000))

/-- Row 1 of the edge index array as a vector. -/
def dstVec (e : IVec S2x800000 32) : IVec S800000 32 :=
  shapeCast _ (extractStridedSlice S1x800000 ![1, 0] e slices_S2x800000_S1x800000_1_0) shapeCasts_S1x800000_S800000

/-- The scatter's start indices: row 1 of the edge index array as a column. -/
def dstRows (e : IVec S2x800000 32) : IVec S800000x1 32 :=
  broadcastInDim S800000x1 ![0] bcast_S800000_S800000x1_0 (dstVec e)

/-- The program's result as a function of its eleven arguments. -/
def whole (x : FVec Ideal S50000x128 .f32) (pe : FVec Ideal S800000x64 .f32) (w1 : FVec Ideal S192x128 .f32)
    (b1 : FVec Ideal S128 .f32) (w2 : FVec Ideal S128x128 .f32) (b2 : FVec Ideal S128 .f32) (u1 : FVec Ideal S256x128 .f32)
    (c1 : FVec Ideal S128 .f32) (u2 : FVec Ideal S128x128 .f32) (c2 : FVec Ideal S128 .f32) (e : IVec S2x800000 32) :
    FVec Ideal S50000x128 .f32 :=
  upd x
    (Host.scatterAdd scatter_S50000x128_S800000x1_S800000x128_1_0_0_1
      (broadcastInDim S50000x128 ![] bcast_S_S50000x128 (constant (F := Ideal) S_ .f32 0x00000000#32)) (dstRows e)
      (msg (Host.gather gather_S50000x128_S800000x1_S800000x128_1_0_n_n_0_1_1128 x (srcRows e)) pe w1 b1 w2 b2))
    u1 c1 u2 c2

variable (m : (ℓ : Loc nD τ sig) → Buf (Elt Ideal) ℓ) (ρ : Dev nD → PrngReg)

/-! ## The first region's entry -/

theorem V1_gx (c : Dev nD) : V1 m ρ c main_v10
    = Host.gather gather_S50000x128_S800000x1_S800000x128_1_0_n_n_0_1_1128 (m ((c : Thread nD τ).loc main_arg0))
        (srcRows (m ((c : Thread nD τ).loc main_arg10))) := by
  show StableHlo.after hostOps0 (W0 m ρ c) (Proc.devRef .tc main_v10) = _
  after_results
  rfl

theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg5 (c : Dev nD) : V1 m ρ c main_arg5 = m ((c : Thread nD τ).loc main_arg5) := by
  show StableHlo.after hostOps0 (W0 m ρ c) (Proc.devRef .tc main_arg5) = _
  after_results

/-! ## The first region's exit -/

/-- The messages: msg of the gathered features, the edge encodings and the message network's weights. -/
theorem W2_msgs (c : Dev nD) : W2 m ρ c (Proc.devRef .tc main_v11)
    = msg (Host.gather gather_S50000x128_S800000x1_S800000x128_1_0_n_n_0_1_1128 (m ((c : Thread nD τ).loc main_arg0))
          (srcRows (m ((c : Thread nD τ).loc main_arg10))))
        (m ((c : Thread nD τ).loc main_arg1)) (m ((c : Thread nD τ).loc main_arg2)) (m ((c : Thread nD τ).loc main_arg3))
        (m ((c : Thread nD τ).loc main_arg4)) (m ((c : Thread nD τ).loc main_arg5)) := by
  refine ((W2_arr m ρ c 6).trans (msg_final (V1 m ρ) c)).trans ?_
  rw [V1_gx, V1_arg1, V1_arg2, V1_arg3, V1_arg4, V1_arg5]

/-- The destination indices pass the first region untouched. -/
theorem W2_dst (c : Dev nD) : W2 m ρ c (Proc.devRef .tc main_v3) = dstVec (m ((c : Thread nD τ).loc main_arg10)) := by
  refine (W2_of_ne m ρ c main_v3 (by decide)).trans ?_
  show StableHlo.after hostOps0 (W0 m ρ c) (Proc.devRef .tc main_v3) = _
  after_results
  rfl

/-! ## The second region's entry -/

theorem V3_agg (c : Dev nD) : V3 m ρ c main_v14
    = Host.scatterAdd scatter_S50000x128_S800000x1_S800000x128_1_0_0_1
        (broadcastInDim S50000x128 ![] bcast_S_S50000x128 (constant (F := Ideal) S_ .f32 0x00000000#32))
        (dstRows (m ((c : Thread nD τ).loc main_arg10)))
        (msg (Host.gather gather_S50000x128_S800000x1_S800000x128_1_0_n_n_0_1_1128 (m ((c : Thread nD τ).loc main_arg0))
            (srcRows (m ((c : Thread nD τ).loc main_arg10))))
          (m ((c : Thread nD τ).loc main_arg1)) (m ((c : Thread nD τ).loc main_arg2)) (m ((c : Thread nD τ).loc main_arg3))
          (m ((c : Thread nD τ).loc main_arg4)) (m ((c : Thread nD τ).loc main_arg5))) := by
  show StableHlo.after hostOps1 (W2 m ρ c) (Proc.devRef .tc main_v14) = _
  after_results
  rw [W2_msgs, W2_dst]
  rfl

/-- An argument array the second region reads is, at its entry, as launched: no operation and no region before it
    writes an argument. -/
theorem V3_arg0 (c : Dev nD) : V3 m ρ c main_arg0 = m ((c : Thread nD τ).loc main_arg0) := by
  show StableHlo.after hostOps1 (W2 m ρ c) (Proc.devRef .tc main_arg0) = _
  after_results
  refine (W2_of_ne m ρ c main_arg0 (by decide)).trans ?_
  show StableHlo.after hostOps0 (W0 m ρ c) (Proc.devRef .tc main_arg0) = _
  after_results
theorem V3_arg6 (c : Dev nD) : V3 m ρ c main_arg6 = m ((c : Thread nD τ).loc main_arg6) := by
  show StableHlo.after hostOps1 (W2 m ρ c) (Proc.devRef .tc main_arg6) = _
  after_results
  refine (W2_of_ne m ρ c main_arg6 (by decide)).trans ?_
  show StableHlo.after hostOps0 (W0 m ρ c) (Proc.devRef .tc main_arg6) = _
  after_results
theorem V3_arg7 (c : Dev nD) : V3 m ρ c main_arg7 = m ((c : Thread nD τ).loc main_arg7) := by
  show StableHlo.after hostOps1 (W2 m ρ c) (Proc.devRef .tc main_arg7) = _
  after_results
  refine (W2_of_ne m ρ c main_arg7 (by decide)).trans ?_
  show StableHlo.after hostOps0 (W0 m ρ c) (Proc.devRef .tc main_arg7) = _
  after_results
theorem V3_arg8 (c : Dev nD) : V3 m ρ c main_arg8 = m ((c : Thread nD τ).loc main_arg8) := by
  show StableHlo.after hostOps1 (W2 m ρ c) (Proc.devRef .tc main_arg8) = _
  after_results
  refine (W2_of_ne m ρ c main_arg8 (by decide)).trans ?_
  show StableHlo.after hostOps0 (W0 m ρ c) (Proc.devRef .tc main_arg8) = _
  after_results
theorem V3_arg9 (c : Dev nD) : V3 m ρ c main_arg9 = m ((c : Thread nD τ).loc main_arg9) := by
  show StableHlo.after hostOps1 (W2 m ρ c) (Proc.devRef .tc main_arg9) = _
  after_results
  refine (W2_of_ne m ρ c main_arg9 (by decide)).trans ?_
  show StableHlo.after hostOps0 (W0 m ρ c) (Proc.devRef .tc main_arg9) = _
  after_results

/-! ## The result -/

/-- The result buffer after the run is whole of the argument arrays. -/
theorem result_eq (c : Dev nD) : W4 m ρ c (Proc.devRef .tc main_v15)
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine ((W4_arr m ρ c 6).trans (upd_final (V3 m ρ) c)).trans ?_
  rw [V3_agg, V3_arg0, V3_arg6, V3_arg7, V3_arg8, V3_arg9]
  rfl

/-- The run, read: every weakly fair execution terminates with the result buffer at whole of the argument arrays and
    the argument arrays as launched. -/
theorem run : θ_run defs (onTc (τ := τ) (main (F := Ideal))) ⟨m, fun _ => 0, ρ⟩ (fun r => ∀ c : Dev nD,
      r.2.mem ((c.tc : Thread nD τ).loc main_v15)
        = whole (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (result_eq m ρ c), (h c).2⟩)
    (Cert.KernelIdeal.Named.run_named (F := Ideal) m ρ)

end Cert.KernelIdeal.Whole

end
-- ==== Proof.RefNets.lean ====
/-
  THE REFERENCE'S TWO NETWORKS ARE THE SAME FUNCTIONS OF THEIR ARRAYS.

  The reference computes the message network on all 800000 edges at once and the update network on all 50000 nodes at
  once, each as array operations: a concatenation along the columns, a product, a bias broadcast to one row and then
  down the rows, a maximum against a broadcast zero, a product, a bias. Read at an entry (row, column) each is the two
  dense layers on that row of the concatenation, which is how msg and upd are defined: so each array expression IS
  msg, respectively upd, of its operands.
-/
import proofs.«164690_j72181220376644_1_alg».proof.Proof.Gen.ReferenceIdeal
import proofs.«164690_j72181220376644_1_alg».proof.Proof.MsgValue
import proofs.«164690_j72181220376644_1_alg».proof.Proof.UpdValue

noncomputable section

open Idealize.ShloMosaic Idealize.ShloMosaic.TcCoe Idealize.SL.Sem Idealize.ShloMosaic.ValueIdx

namespace Cert.ReferenceIdeal.Nets

open Cert.ReferenceIdeal Cert.ReferenceIdeal.Gen

/-- The reference's message network, as array operations on the gathered features and the edge encodings. -/
def msgOps (gx : FVec Ideal S800000x128 .f32) (pe : FVec Ideal S800000x64 .f32) (w1 : FVec Ideal S192x128 .f32)
    (b1 : FVec Ideal S128 .f32) (w2 : FVec Ideal S128x128 .f32) (b2 : FVec Ideal S128 .f32) : FVec Ideal S800000x128 .f32 :=
  addf (Host.dotGeneral dot_S800000x128_S128x128_S800000x128_1_0_0_1_n_n none
      (maximumf (addf (Host.dotGeneral dot_S800000x192_S192x128_S800000x128_1_0_0_1_n_n none
            (concatenate S800000x192 1 [⟨S800000x128, gx⟩, ⟨S800000x64, pe⟩] concatenates_S800000x128_S800000x64_S800000x192_d1) w1)
          (broadcastInDim S800000x128 ![0, 1] bcast_S1x128_S800000x128_0_1 (broadcastInDim S1x128 ![1] bcast_S128_S1x128_1 b1)))
        (broadcastInDim S800000x128 ![] bcast_S_S800000x128 (constant (F := Ideal) S_ .f32 0x00000000#32))) w2)
    (broadcastInDim S800000x128 ![0, 1] bcast_S1x128_S800000x128_0_1 (broadcastInDim S1x128 ![1] bcast_S128_S1x128_1 b2))

/-- The reference's update network, as array operations on the node features and the aggregated messages. -/
def updOps (x : FVec Ideal S50000x128 .f32) (agg : FVec Ideal S50000x128 .f32) (u1 : FVec Ideal S256x128 .f32)
    (c1 : FVec Ideal S128 .f32) (u2 : FVec Ideal S128x128 .f32) (c2 : FVec Ideal S128 .f32) : FVec Ideal S50000x128 .f32 :=
  addf (Host.dotGeneral dot_S50000x128_S128x128_S50000x128_1_0_0_1_n_n none
      (maximumf (addf (Host.dotGeneral dot_S50000x256_S256x128_S50000x128_1_0_0_1_n_n none
            (concatenate S50000x256 1 [⟨S50000x128, x⟩, ⟨S50000x128, agg⟩] concatenates_S50000x128_S50000x128_S50000x256_d1) u1)
          (broadcastInDim S50000x128 ![0, 1] bcast_S1x128_S50000x128_0_1 (broadcastInDim S1x128 ![1] bcast_S128_S1x128_1 c1)))
        (broadcastInDim S50000x128 ![] bcast_S_S50000x128 (constant (F := Ideal) S_ .f32 0x00000000#32))) u2)
    (broadcastInDim S50000x128 ![0, 1] bcast_S1x128_S50000x128_0_1 (broadcastInDim S1x128 ![1] bcast_S128_S1x128_1 c2))

/-- The message network's array operations are msg of their operands. -/
theorem msgOps_eq (gx : FVec Ideal S800000x128 .f32) (pe : FVec Ideal S800000x64 .f32) (w1 : FVec Ideal S192x128 .f32)
    (b1 : FVec Ideal S128 .f32) (w2 : FVec Ideal S128x128 .f32) (b2 : FVec Ideal S128 .f32) :
    msgOps gx pe w1 b1 w2 b2 = Cert.KernelIdeal.Msg.msg gx pe w1 b1 w2 b2 := by
  funext i
  obtain ⟨e, j, rfl⟩ : ∃ (e : Fin 800000) (j : Fin 128), i = ix2 e j := ⟨i 0, i 1, eq_ix2 i⟩
  unfold msgOps
  exact Dense.host_twoLayer_apply (M := 800000) (A := 128) (B := 64) (K := 192) (H := 128) (O := 128) rfl
    concatenates_S800000x128_S800000x64_S800000x192_d1 bcast_S128_S1x128_1 bcast_S1x128_S800000x128_0_1
    bcast_S_S800000x128 bcast_S128_S1x128_1 bcast_S1x128_S800000x128_0_1
    dot_S800000x192_S192x128_S800000x128_1_0_0_1_n_n rfl dot_S800000x128_S128x128_S800000x128_1_0_0_1_n_n rfl
    gx pe w1 b1 w2 b2 e j

/-- The update network's array operations are upd of their operands. -/
theorem updOps_eq (x : FVec Ideal S50000x128 .f32) (agg : FVec Ideal S50000x128 .f32) (u1 : FVec Ideal S256x128 .f32)
    (c1 : FVec Ideal S128 .f32) (u2 : FVec Ideal S128x128 .f32) (c2 : FVec Ideal S128 .f32) :
    updOps x agg u1 c1 u2 c2 = Cert.KernelIdeal.Upd.upd x agg u1 c1 u2 c2 := by
  funext i
  obtain ⟨n, j, rfl⟩ : ∃ (n : Fin 50000) (j : Fin 128), i = ix2 n j := ⟨i 0, i 1, eq_ix2 i⟩
  unfold updOps
  exact Dense.host_twoLayer_apply (M := 50000) (A := 128) (B := 128) (K := 256) (H := 128) (O := 128) rfl
    concatenates_S50000x128_S50000x128_S50000x256_d1 bcast_S128_S1x128_1 bcast_S1x128_S50000x128_0_1
    bcast_S_S50000x128 bcast_S128_S1x128_1 bcast_S1x128_S50000x128_0_1
    dot_S50000x256_S256x128_S50000x128_1_0_0_1_n_n rfl dot_S50000x128_S128x128_S50000x128_1_0_0_1_n_n rfl
    x agg u1 c1 u2 c2 n j

end Cert.ReferenceIdeal.Nets

end
-- ==== Proof.RefWhole.lean ====
/-
  THE REFERENCE'S RESULT IS THE SAME FUNCTION OF THE ARGUMENTS AS THE KERNEL PROGRAM'S.

  The reference gathers the source node's features for every edge, applies the message network as array operations,
  adds each edge's message into its destination node's row of a zero array, and applies the update network as array
  operations. The two networks' array operations are msg and upd of their operands; the gather, the scatter-add and
  the index arithmetic on the edge index array are the very operations the kernel program applies around its two
  regions. So the reference's result is whole of the argument arrays.
-/
import proofs.«164690_j72181220376644_1_alg».proof.Proof.RefNets
import proofs.«164690_j72181220376644_1_alg».proof.Proof.KernelWhole

noncomputable section

open Idealize.ShloMosaic Idealize.ShloMosaic.TcCoe Idealize.SL.Sem Idealize.ShloMosaic.ValueIdx

namespace Cert.ReferenceIdeal.Whole

open Cert.ReferenceIdeal Cert.ReferenceIdeal.Gen Cert.ReferenceIdeal.Nets

/-- The start indices of the gather: row 0 of the edge index array, a negative entry moved up by 50000, as a column. -/
def srcRows (e : IVec S2x800000 32) : IVec S800000x1 32 :=
  broadcastInDim S800000x1 ![0] bcast_S800000_S800000x1_0
    (select
      (cmpi .slt (shapeCast _ (extractStridedSlice S1x800000 ![0, 0] e slices_S2x800000_S1x800000_0_0) shapeCasts_S1x800000_S800000)
        (broadcastInDim S800000 ![] bcast_S_S800000 (constantI S_ 32 0#32)))
      (addi (shapeCast _ (extractStridedSlice S1x800000 ![0, 0] e slices_S2x800000_S1x800000_0_0) shapeCasts_S1x800000_S800000)
        (broadcastInDim S800000 ![] bcast_S_S800000 (constantI S_ 32 50000#32)))
      (shapeCast _ (extractStridedSlice S1x800000 ![0, 0] e slices_S2x800000_S1x800000_0_0) shapeCasts_S1x800000_S800000))

/-- The scatter's start indices: row 1 of the edge index array as a column. -/
def dstRows (e : IVec S2x800000 32) : IVec S800000x1 32 :=
  broadcastInDim S800000x1 ![0] bcast_S800000_S800000x1_0
    (shapeCast _ (extractStridedSlice S1x800000 ![1, 0] e slices_S2x800000_S1x800000_1_0) shapeCasts_S1x800000_S800000)

/-- The reference's result as array operations of its eleven arguments. -/
def refOps (x : FVec Ideal S50000x128 .f32) (pe : FVec Ideal S800000x64 .f32) (w1 : FVec Ideal S192x128 .f32)
    (b1 : FVec Ideal S128 .f32) (w2 : FVec Ideal S128x128 .f32) (b2 : FVec Ideal S128 .f32) (u1 : FVec Ideal S256x128 .f32)
    (c1 : FVec Ideal S128 .f32) (u2 : FVec Ideal S128x128 .f32) (c2 : FVec Ideal S128 .f32) (e : IVec S2x800000 32) :
    FVec Ideal S50000x128 .f32 :=
  updOps x
    (Host.scatterAdd scatter_S50000x128_S800000x1_S800000x128_1_0_0_1
      (broadcastInDim S50000x128 ![] bcast_S_S50000x128 (constant (F := Ideal) S_ .f32 0x00000000#32)) (dstRows e)
      (msgOps (Host.gather gather_S50000x128_S800000x1_S800000x128_1_0_n_n_0_1_1128 x (srcRows e)) pe w1 b1 w2 b2))
    u1 c1 u2 c2

/-- The reference's array operations are whole of the arguments. -/
theorem refOps_eq_whole (x : FVec Ideal S50000x128 .f32) (pe : FVec Ideal S800000x64 .f32) (w1 : FVec Ideal S192x128 .f32)
    (b1 : FVec Ideal S128 .f32) (w2 : FVec Ideal S128x128 .f32) (b2 : FVec Ideal S128 .f32) (u1 : FVec Ideal S256x128 .f32)
    (c1 : FVec Ideal S128 .f32) (u2 : FVec Ideal S128x128 .f32) (c2 : FVec Ideal S128 .f32) (e : IVec S2x800000 32) :
    refOps x pe w1 b1 w2 b2 u1 c1 u2 c2 e = Cert.KernelIdeal.Whole.whole x pe w1 b1 w2 b2 u1 c1 u2 c2 e := by
  unfold refOps
  rw [updOps_eq, msgOps_eq]
  rfl

end Cert.ReferenceIdeal.Whole

end
-- ==== Proof.lean ====
/-
  The certificate of a graph layer with message passing: for every edge the source node's features and the edge's
  encoding go through a two-layer message network, the messages are added up per destination node, and every node's
  features and its sum go through a two-layer update network. The kernel program runs the two networks as two tiled
  kernel regions (3200 edges, then 5000 nodes, at a time; operands narrowed to a shorter float format before each
  product) around a host gather and a host scatter-add; the reference is the same computation as array operations.
  Over the extended reals the narrowing is the identity and each network's row depends only on the same row of its
  inputs, so both programs end at ONE function of the arguments (Proof/KernelWhole.lean: whole), the kernel program
  by reading its regions' result arrays block by block (Proof/MsgValue.lean, Proof/UpdValue.lean over
  Proof/LibDense.lean), the reference by reading its array operations at an entry (Proof/RefNets.lean,
  Proof/RefWhole.lean). No law of arithmetic beyond that reading is used, so the precondition is never opened.
-/
import proofs.«164690_j72181220376644_1_alg».proof.Defs
import proofs.«164690_j72181220376644_1_alg».proof.Proof.Gen.Kernel
import proofs.«164690_j72181220376644_1_alg».proof.Proof.Gen.Kernel.Skeleton
import proofs.«164690_j72181220376644_1_alg».proof.Proof.Gen.Kernel.Launch
import proofs.«164690_j72181220376644_1_alg».proof.Proof.Gen.Kernel.Points
import proofs.«164690_j72181220376644_1_alg».proof.Proof.Gen.Kernel.Frame
import proofs.«164690_j72181220376644_1_alg».proof.Proof.Gen.KernelIdeal
import proofs.«164690_j72181220376644_1_alg».proof.Proof.Gen.KernelIdeal.Skeleton
import proofs.«164690_j72181220376644_1_alg».proof.Proof.Gen.KernelIdeal.Launch
import proofs.«164690_j72181220376644_1_alg».proof.Proof.Gen.KernelIdeal.Points
import proofs.«164690_j72181220376644_1_alg».proof.Proof.Gen.KernelIdeal.Frame
import proofs.«164690_j72181220376644_1_alg».proof.Proof.Gen.ReferenceIdeal
import proofs.«164690_j72181220376644_1_alg».proof.Proof.Gen.Pre_finite_inputs
import proofs.«164690_j72181220376644_1_alg».proof.Proof.Gen.ReferenceIdeal.Run
import proofs.«164690_j72181220376644_1_alg».proof.Proof.KernelWhole
import proofs.«164690_j72181220376644_1_alg».proof.Proof.RefWhole
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result at whole of the (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [a0, a1, a2, a3, a4, a5, a6, a7, a8, a9, a10]
  exact Cert.ReferenceIdeal.Whole.refOps_eq_whole _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
